-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x32x3 : Shape := ⟨4, ![256, 512, 32, 3]⟩
abbrev S256x512x32x3x3 : Shape := ⟨5, ![256, 512, 32, 3, 3]⟩
abbrev S_ : Shape := ⟨0, ![]⟩

class Facts : Prop where
  bcast_S_S256x512x32x3 : S_.BroadcastsInDim S256x512x32x3 (![] : Fin 0 → Fin S256x512x32x3.rank)
  reducesTo_S256x512x32x3_S_d0_1_2_3 : S256x512x32x3.ReducesTo [0, 1, 2, 3] S_
  h_S_ : 0 < S_.numel
  bcast_S_S256x512x32x3x3 : S_.BroadcastsInDim S256x512x32x3x3 (![] : Fin 0 → Fin S256x512x32x3x3.rank)
  reducesTo_S256x512x32x3x3_S_d0_1_2_3_4 : S256x512x32x3x3.ReducesTo [0, 1, 2, 3, 4] S_

variable [Facts]

def fn {F : FTy → Type} [FloatOps F] (main_arg0 : FVec F S256x512x32x3 .f32) (main_arg1 : FVec F S256x512x32x3 .f32) (main_arg2 : FVec F S256x512x32x3x3 .f32) : IVec S_ 1 :=
  let main_v0 : FVec F S256x512x32x3 .f32 := Host.absf main_arg0
  let main_cst : FVec F S_ .f32 := constant S_ .f32 0x7F800000#32
  let main_v1 : FVec F S256x512x32x3 .f32 := broadcastInDim S256x512x32x3 ![] bcast_S_S256x512x32x3 main_cst
  let main_v2 : IVec S256x512x32x3 1 := cmpf .olt main_v0 main_v1
  let main_c : IVec S_ 1 := constantI S_ 1 1#1
  let main_v3 : IVec S_ 1 := (fun x v => Host.reduce IntOp.andi x v reducesTo_S256x512x32x3_S_d0_1_2_3 h_S_) main_v2 main_c
  let main_v4 : FVec F S256x512x32x3 .f32 := Host.absf main_arg1
  let main_cst_0 : FVec F S_ .f32 := constant S_ .f32 0x7F800000#32
  let main_v5 : FVec F S256x512x32x3 .f32 := broadcastInDim S256x512x32x3 ![] bcast_S_S256x512x32x3 main_cst_0
  let main_v6 : IVec S256x512x32x3 1 := cmpf .olt main_v4 main_v5
  let main_c_1 : IVec S_ 1 := constantI S_ 1 1#1
  let main_v7 : IVec S_ 1 := (fun x v => Host.reduce IntOp.andi x v reducesTo_S256x512x32x3_S_d0_1_2_3 h_S_) main_v6 main_c_1
  let main_v8 : IVec S_ 1 := andi main_v3 main_v7
  let main_v9 : FVec F S256x512x32x3x3 .f32 := Host.absf main_arg2
  let main_cst_2 : FVec F S_ .f32 := constant S_ .f32 0x7F800000#32
  let main_v10 : FVec F S256x512x32x3x3 .f32 := broadcastInDim S256x512x32x3x3 ![] bcast_S_S256x512x32x3x3 main_cst_2
  let main_v11 : IVec S256x512x32x3x3 1 := cmpf .olt main_v9 main_v10
  let main_c_3 : IVec S_ 1 := constantI S_ 1 1#1
  let main_v12 : IVec S_ 1 := (fun x v => Host.reduce IntOp.andi x v reducesTo_S256x512x32x3x3_S_d0_1_2_3_4 h_S_) main_v11 main_c_3
  let main_v13 : IVec S_ 1 := andi main_v8 main_v12
  main_v13
-- ==== Kernel.lean ====
abbrev S256x512x32x3 : Shape := ⟨4, ![256, 512, 32, 3]⟩
abbrev S256x512x32x3x3 : Shape := ⟨5, ![256, 512, 32, 3, 3]⟩
abbrev S4194304x3 : Shape := ⟨2, ![4194304, 3]⟩
abbrev S4194304x9 : Shape := ⟨2, ![4194304, 9]⟩
abbrev S1x1 : Shape := ⟨2, ![1, 1]⟩
abbrev S8192x3 : Shape := ⟨2, ![8192, 3]⟩
abbrev S8192x9 : Shape := ⟨2, ![8192, 9]⟩
abbrev S8192x1 : Shape := ⟨2, ![8192, 1]⟩
abbrev S8192 : Shape := ⟨1, ![8192]⟩
abbrev S1x8192 : Shape := ⟨2, ![1, 8192]⟩
abbrev S1 : Shape := ⟨1, ![1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S256x512x32x3, .f32⟩
  | .hbm, ⟨1, _⟩ => ⟨S256x512x32x3, .f32⟩
  | .hbm, ⟨2, _⟩ => ⟨S256x512x32x3x3, .f32⟩
  | .hbm, ⟨3, _⟩ => ⟨S4194304x3, .f32⟩
  | .hbm, ⟨4, _⟩ => ⟨S4194304x3, .f32⟩
  | .hbm, ⟨5, _⟩ => ⟨S4194304x9, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x3, .f32⟩
  | .local _ .vmem, ⟨1, _⟩ => ⟨S8192x3, .f32⟩
  | .local _ .vmem, ⟨2, _⟩ => ⟨S8192x3, .f32⟩
  | .local _ .vmem, ⟨3, _⟩ => ⟨S8192x3, .f32⟩
  | .local _ .vmem, ⟨4, _⟩ => ⟨S8192x9, .f32⟩
  | .local _ .vmem, ⟨5, _⟩ => ⟨S8192x9, .f32⟩
  | .local _ .vmem, ⟨6, _⟩ => ⟨S1x1, .f32⟩
  | .local _ .vmem, ⟨7, _⟩ => ⟨S1x1, .f32⟩
  | _, _ => ⟨S256x512x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v64 : BitVec 1 := Scalar.cmpi .eq arg0 c511_i32
  let v65 : BitVec 32 := Scalar.extui v64
  let c0_i32_13 : BitVec 32 := 0#32
  let v66 : BitVec 1 := Scalar.cmpi .ne v65 c0_i32_13
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S256x512x32x3_S4194304x3 : S256x512x32x3.ShapeCasts S4194304x3
  shapeCasts_S256x512x32x3x3_S4194304x9 : S256x512x32x3x3.ShapeCasts S4194304x9
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  slices_S8192x3_o0_0_S8192x1 : S8192x3.Slices ![0, 0] S8192x1
  shapeCasts_S8192x1_S8192 : S8192x1.ShapeCasts S8192
  slices_S8192x3_o0_1_S8192x1 : S8192x3.Slices ![0, 1] S8192x1
  slices_S8192x3_o0_2_S8192x1 : S8192x3.Slices ![0, 2] S8192x1
  inb_S8192x9_S8192x9_0_0 : ∀ a, (![0, 0] : Fin 2 → Nat) a + S8192x9.size a ≤ S8192x9.size a
  h_S8192x9 : 0 < S8192x9.numel
  shapeCasts_S8192x9_S8192x9 : S8192x9.ShapeCasts S8192x9
  slices_S8192x9_o0_0_S8192x1 : S8192x9.Slices ![0, 0] S8192x1
  slices_S8192x9_o0_3_S8192x1 : S8192x9.Slices ![0, 3] S8192x1
  slices_S8192x9_o0_4_S8192x1 : S8192x9.Slices ![0, 4] S8192x1
  slices_S8192x9_o0_6_S8192x1 : S8192x9.Slices ![0, 6] S8192x1
  slices_S8192x9_o0_7_S8192x1 : S8192x9.Slices ![0, 7] S8192x1
  slices_S8192x9_o0_8_S8192x1 : S8192x9.Slices ![0, 8] S8192x1
  shapeCasts_S8192_S1x8192 : S8192.ShapeCasts S1x8192
  reduces_S1x8192_S1 : S1x8192.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S4194304x3.size a
  hwx0_0 : ∀ i : grid0.Coords, EltTy.bits .f32 = 32 ∨ (Rect.block (s := S4194304x3) S8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x3.size a ≤ S4194304x3.size a
  hwx0_1 : ∀ i : grid0.Coords, EltTy.bits .f32 = 32 ∨ (Rect.block (s := S4194304x3) S8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x9.size a ≤ S4194304x9.size a
  hwx0_2 : ∀ i : grid0.Coords, EltTy.bits .f32 = 32 ∨ (Rect.block (s := S4194304x9) S8192x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x512x32x3 : Shape := ⟨4, ![256, 512, 32, 3]⟩
abbrev S256x512x32x3x3 : Shape := ⟨5, ![256, 512, 32, 3, 3]⟩
abbrev S3 : Shape := ⟨1, ![3]⟩
abbrev S_ : Shape := ⟨0, ![]⟩
abbrev S3x1 : Shape := ⟨2, ![3, 1]⟩
abbrev S3x2 : Shape := ⟨2, ![3, 2]⟩
abbrev S256x512x32 : Shape := ⟨3, ![256, 512, 32]⟩
abbrev S256x512x32x1 : Shape := ⟨4, ![256, 512, 32, 1]⟩
abbrev S256x512x32x1x1 : Shape := ⟨5, ![256, 512, 32, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S256x512x32x3, .f32⟩
  | .hbm, ⟨1, _⟩ => ⟨S256x512x32x3, .f32⟩
  | .hbm, ⟨2, _⟩ => ⟨S256x512x32x3x3, .f32⟩
  | .hbm, ⟨3, _⟩ => ⟨S3, .i32⟩
  | .hbm, ⟨4, _⟩ => ⟨S3, .i32⟩
  | .hbm, ⟨5, _⟩ => ⟨S_, .i32⟩
  | .hbm, ⟨6, _⟩ => ⟨S3, .i32⟩
  | .hbm, ⟨7, _⟩ => ⟨S3, .i1⟩
  | .hbm, ⟨8, _⟩ => ⟨S_, .i32⟩
  | .hbm, ⟨9, _⟩ => ⟨S3, .i32⟩
  | .hbm, ⟨10, _⟩ => ⟨S3, .i32⟩
  | .hbm, ⟨11, _⟩ => ⟨S3, .i32⟩
  | .hbm, ⟨12, _⟩ => ⟨S_, .i32⟩
  | .hbm, ⟨13, _⟩ => ⟨S3, .i32⟩
  | .hbm, ⟨14, _⟩ => ⟨S3, .i1⟩
  | .hbm, ⟨15, _⟩ => ⟨S_, .i32⟩
  | .hbm, ⟨16, _⟩ => ⟨S3, .i32⟩
  | .hbm, ⟨17, _⟩ => ⟨S3, .i32⟩
  | .hbm, ⟨18, _⟩ => ⟨S3, .i32⟩
  | .hbm, ⟨19, _⟩ => ⟨S3x1, .i32⟩
  | .hbm, ⟨20, _⟩ => ⟨S3x1, .i32⟩
  | .hbm, ⟨21, _⟩ => ⟨S3x2, .i32⟩
  | .hbm, ⟨22, _⟩ => ⟨S256x512x32x3, .f32⟩
  | .hbm, ⟨23, _⟩ => ⟨S256x512x32x3, .f32⟩
  | .hbm, ⟨24, _⟩ => ⟨S_, .f32⟩
  | .hbm, ⟨25, _⟩ => ⟨S256x512x32, .f32⟩
  | .hbm, ⟨26, _⟩ => ⟨S_, .f32⟩
  | .hbm, ⟨27, _⟩ => ⟨S256x512x32, .f32⟩
  | .hbm, ⟨28, _⟩ => ⟨S256x512x32, .f32⟩
  | .hbm, ⟨29, _⟩ => ⟨S256x512x32x3, .f32⟩
  | .hbm, ⟨30, _⟩ => ⟨S256x512x32x1, .f32⟩
  | .hbm, ⟨31, _⟩ => ⟨S256x512x32, .f32⟩
  | .hbm, ⟨32, _⟩ => ⟨S256x512x32x1x1, .f32⟩
  | .hbm, ⟨33, _⟩ => ⟨S256x512x32, .f32⟩
  | .hbm, ⟨34, _⟩ => ⟨S256x512x32, .f32⟩
  | .hbm, ⟨35, _⟩ => ⟨S256x512x32x1, .f32⟩
  | .hbm, ⟨36, _⟩ => ⟨S256x512x32, .f32⟩
  | .hbm, ⟨37, _⟩ => ⟨S256x512x32x1x1, .f32⟩
  | .hbm, ⟨38, _⟩ => ⟨S256x512x32, .f32⟩
  | .hbm, ⟨39, _⟩ => ⟨S256x512x32, .f32⟩
  | .hbm, ⟨40, _⟩ => ⟨S256x512x32, .f32⟩
  | .hbm, ⟨41, _⟩ => ⟨S256x512x32x1x1, .f32⟩
  | .hbm, ⟨42, _⟩ => ⟨S256x512x32, .f32⟩
  | .hbm, ⟨43, _⟩ => ⟨S256x512x32, .f32⟩
  | .hbm, ⟨44, _⟩ => ⟨S256x512x32x1, .f32⟩
  | .hbm, ⟨45, _⟩ => ⟨S256x512x32, .f32⟩
  | .hbm, ⟨46, _⟩ => ⟨S256x512x32x1x1, .f32⟩
  | .hbm, ⟨47, _⟩ => ⟨S256x512x32, .f32⟩
  | .hbm, ⟨48, _⟩ => ⟨S256x512x32, .f32⟩
  | .hbm, ⟨49, _⟩ => ⟨S256x512x32, .f32⟩
  | .hbm, ⟨50, _⟩ => ⟨S256x512x32x1x1, .f32⟩
  | .hbm, ⟨51, _⟩ => ⟨S256x512x32, .f32⟩
  | .hbm, ⟨52, _⟩ => ⟨S256x512x32, .f32⟩
  | .hbm, ⟨53, _⟩ => ⟨S256x512x32, .f32⟩
  | .hbm, ⟨54, _⟩ => ⟨S256x512x32x1x1, .f32⟩
  | .hbm, ⟨55, _⟩ => ⟨S256x512x32, .f32⟩
  | .hbm, ⟨56, _⟩ => ⟨S256x512x32, .f32⟩
  | .hbm, ⟨57, _⟩ => ⟨S256x512x32, .f32⟩
  | .hbm, ⟨58, _⟩ => ⟨S256x512x32, .f32⟩
  | .hbm, ⟨59, _⟩ => ⟨S256x512x32, .f32⟩
  | .hbm, ⟨60, _⟩ => ⟨S256x512x32, .f32⟩
  | .hbm, ⟨61, _⟩ => ⟨S256x512x32, .f32⟩
  | .hbm, ⟨62, _⟩ => ⟨S256x512x32, .f32⟩
  | .hbm, ⟨63, _⟩ => ⟨S_, .f32⟩
  | .hbm, ⟨64, _⟩ => ⟨S256x512x32, .f32⟩
  | .hbm, ⟨65, _⟩ => ⟨S256x512x32, .f32⟩
  | .hbm, ⟨66, _⟩ => ⟨S_, .f32⟩
  | .hbm, ⟨67, _⟩ => ⟨S256x512x32, .f32⟩
  | .hbm, ⟨68, _⟩ => ⟨S256x512x32, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S256x512x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_c_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_c_1 : Ref sig .tc := ⟨.hbm, 12, rfl⟩
abbrev main_call0_v7 : Ref sig .tc := ⟨.hbm, 13, rfl⟩
abbrev main_call0_v8 : Ref sig .tc := ⟨.hbm, 14, rfl⟩
abbrev main_call0_c_2 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_1 : Ref sig .tc := ⟨.hbm, 63, rfl⟩
abbrev main_v39 : Ref sig .tc := ⟨.hbm, 64, rfl⟩
abbrev main_v40 : Ref sig .tc := ⟨.hbm, 65, rfl⟩
abbrev main_cst_2 : Ref sig .tc := ⟨.hbm, 66, rfl⟩
abbrev main_v41 : Ref sig .tc := ⟨.hbm, 67, rfl⟩
abbrev main_v42 : Ref sig .tc := ⟨.hbm, 68, rfl⟩
abbrev main_cst_3 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  reducesTo_S256x512x32x3_S256x512x32_d3 : S256x512x32x3.ReducesTo [3] S256x512x32
  h_S_ : 0 < S_.numel
  bcast_S_S256x512x32 : S_.BroadcastsInDim S256x512x32 (![] : Fin 0 → Fin S256x512x32.rank)
  slices_S256x512x32x3_S256x512x32x1_0_0_0_0 : S256x512x32x3.Slices ![0, 0, 0, 0] S256x512x32x1
  shapeCasts_S256x512x32x1_S256x512x32 : S256x512x32x1.ShapeCasts S256x512x32
  slices_S256x512x32x3x3_S256x512x32x1x1_0_0_0_0_0 : S256x512x32x3x3.Slices ![0, 0, 0, 0, 0] S256x512x32x1x1
  shapeCasts_S256x512x32x1x1_S256x512x32 : S256x512x32x1x1.ShapeCasts S256x512x32
  slices_S256x512x32x3_S256x512x32x1_0_0_0_1 : S256x512x32x3.Slices ![0, 0, 0, 1] S256x512x32x1
  slices_S256x512x32x3x3_S256x512x32x1x1_0_0_0_1_0 : S256x512x32x3x3.Slices ![0, 0, 0, 1, 0] S256x512x32x1x1
  slices_S256x512x32x3x3_S256x512x32x1x1_0_0_0_1_1 : S256x512x32x3x3.Slices ![0, 0, 0, 1, 1] S256x512x32x1x1
  slices_S256x512x32x3_S256x512x32x1_0_0_0_2 : S256x512x32x3.Slices ![0, 0, 0, 2] S256x512x32x1
  slices_S256x512x32x3x3_S256x512x32x1x1_0_0_0_2_0 : S256x512x32x3x3.Slices ![0, 0, 0, 2, 0] S256x512x32x1x1
  slices_S256x512x32x3x3_S256x512x32x1x1_0_0_0_2_1 : S256x512x32x3x3.Slices ![0, 0, 0, 2, 1] S256x512x32x1x1
  slices_S256x512x32x3x3_S256x512x32x1x1_0_0_0_2_2 : S256x512x32x3x3.Slices ![0, 0, 0, 2, 2] S256x512x32x1x1
  reducesTo_S256x512x32_S_d0_1_2 : S256x512x32.ReducesTo [0, 1, 2] S_
  gather_S256x512x32x3x3_S3x2_S256x512x32x3_012_34_n_n_34_1_2565123211_wf : GatherDims.WF S256x512x32x3x3 S3x2 S256x512x32x3 [0, 1, 2] [3, 4] [] [3, 4] [] 1 ![256, 512, 32, 1, 1]

variable [Facts₀]

def gather_S256x512x32x3x3_S3x2_S256x512x32x3_012_34_n_n_34_1_2565123211 : GatherDims S256x512x32x3x3 S3x2 S256x512x32x3 where
  offsetDims := [0, 1, 2]
  collapsedSliceDims := [3, 4]
  operandBatchingDims := []
  startIndicesBatchingDims := []
  startIndexMap := [3, 4]
  indexVectorDim := 1
  sliceSizes := ![256, 512, 32, 1, 1]
  wf := gather_S256x512x32x3x3_S3x2_S256x512x32x3_012_34_n_n_34_1_2565123211_wf

class Facts : Prop extends Facts₀ where

variable [Facts]
-- ==== Proof.Pieces.lean ====
/-
  What one run of the kernel body leaves behind, read back as values.

  The body keeps a one-element accumulator in a scratch buffer that lives across the grid.  At the first grid
  point it stores zero there; at every point it loads the accumulator, adds the tile's sum of losses and stores
  the result back; at the last point it copies the accumulator into the output block.  Each lemma below says
  which value one of the body's three control cases leaves in the accumulator (or in the output block): the
  body's arithmetic applied to the three input blocks and to what the accumulator held before.
-/
import proofs.«175528_j43868795961969_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- First grid point: the accumulator is reset to the zero block, read back, and left at zero plus the tile's sum. -/
theorem soutA_eq (c : Dev nD) (i : grid0.Coords) (a1 : Memref sig .tc .vmem S8192x3 .f32) (h1 : a1.IsWhole)
    (a2 : Memref sig .tc .vmem S8192x3 .f32) (h2 : a2.IsWhole) (a3 : Memref sig .tc .vmem S8192x9 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i) (x0 x1 : Vec F S8192x3 .f32) (x2 : Vec F S8192x9 .f32) :
    sout0_A_0 c i a1 h1 a2 h2 a3 h3 a4 h4 a5 h5 hc0 hc1 x0 x1 x2
      = k0_pay1 (k0_pay7 x0 x1 x2) (k0_pay8 x2) (k0_pay2 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h5.read_unread,
    View.ld_unit_zero (S := S8192x3) hz, View.ld_unit_zero (S := S8192x9) hz, View.ld_unit_zero (S := S1x1) hz]

/-- A middle grid point: the accumulator held `xs0` and is left at `xs0` plus the tile's sum. -/
theorem soutB_eq (c : Dev nD) (i : grid0.Coords) (a1 : Memref sig .tc .vmem S8192x3 .f32) (h1 : a1.IsWhole)
    (a2 : Memref sig .tc .vmem S8192x3 .f32) (h2 : a2.IsWhole) (a3 : Memref sig .tc .vmem S8192x9 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i) (x0 x1 : Vec F S8192x3 .f32) (x2 : Vec F S8192x9 .f32) (xs0 : Vec F S1x1 .f32) :
    sout0_B_0 c i a1 h1 a2 h2 a3 h3 a4 h4 a5 h5 hc0 hc1 x0 x1 x2 xs0 = k0_pay1 (k0_pay7 x0 x1 x2) (k0_pay8 x2) xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero hz]
  simp only [View.readAt_eq_ld, h1.read_unread, h2.read_unread, h3.read_unread, h5.read_unread,
    View.ld_unit_zero (S := S8192x3) hz, View.ld_unit_zero (S := S8192x9) hz, View.ld_unit_zero (S := S1x1) hz]

/-- The last grid point updates the accumulator the same way, -/
theorem soutC_eq (c : Dev nD) (i : grid0.Coords) (a1 : Memref sig .tc .vmem S8192x3 .f32) (h1 : a1.IsWhole)
    (a2 : Memref sig .tc .vmem S8192x3 .f32) (h2 : a2.IsWhole) (a3 : Memref sig .tc .vmem S8192x9 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 : Vec F S8192x3 .f32) (x2 : Vec F S8192x9 .f32) (xs0 : Vec F S1x1 .f32) :
    sout0_C_0 c i a1 h1 a2 h2 a3 h3 a4 h4 a5 h5 hc0 hc1 x0 x1 x2 xs0 = k0_pay1 (k0_pay7 x0 x1 x2) (k0_pay8 x2) xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h5.read_unread,
    View.ld_unit_zero (S := S8192x3) hz, View.ld_unit_zero (S := S8192x9) hz, View.ld_unit_zero (S := S1x1) hz]

/-- and copies the updated accumulator into the output block. -/
theorem outC_eq (c : Dev nD) (i : grid0.Coords) (a1 : Memref sig .tc .vmem S8192x3 .f32) (h1 : a1.IsWhole)
    (a2 : Memref sig .tc .vmem S8192x3 .f32) (h2 : a2.IsWhole) (a3 : Memref sig .tc .vmem S8192x9 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 : Vec F S8192x3 .f32) (x2 : Vec F S8192x9 .f32) (xs0 : Vec F S1x1 .f32) :
    out0_C_3 c i a1 h1 a2 h2 a3 h3 a4 h4 a5 h5 hc0 hc1 x0 x1 x2 xs0 = k0_pay1 (k0_pay7 x0 x1 x2) (k0_pay8 x2) xs0 := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero hz, View.readCov_unit_zero (S := S1x1) _ hz]
  simp only [View.readAt_eq_ld, h1.read_unread, h2.read_unread, h3.read_unread, h5.read_unread,
    View.ld_unit_zero (S := S8192x3) hz, View.ld_unit_zero (S := S8192x9) hz, View.ld_unit_zero (S := S1x1) hz]

end Cert.KernelIdeal.Pieces

end
-- ==== Proof.Spec.lean ====
/-
  The mathematics both programs compute, stated once over the extended reals.

  Each of the 256·512·32 problems has a residual d = y − μ in three coordinates and a lower-triangular
  factor L (entries l00, l10, l11, l20, l21, l22).  Forward substitution solves L x = d,
      x0 = d0 / l00,   x1 = (d1 − l10·x0) / l11,   x2 = (d2 − l20·x0 − l21·x1) / l22,
  and the problem's loss is  ½ · ((x0² + x1² + x2²) + 2·(log l00 + log l11 + log l22) + c),
  c the single-precision constant 3·log 2π.  The result is the sum of all losses divided by 2²².
-/
import Idealize.ShloMosaic.PureOps.Ideal
import Idealize.ShloMosaic.PureOps.Ideal.Laws
import Idealize.ShloMosaic.Lib.ValueIdx

noncomputable section

namespace Cert.Nll

open Idealize.ShloMosaic Idealize.ShloMosaic.ValueIdx

/-- The literals of the loss, as the extended reals their single-precision words denote. -/
abbrev half : EReal := Ideal.ofBits .f32 0x3F000000#32
abbrev two : EReal := Ideal.ofBits .f32 0x40000000#32
abbrev cLog : EReal := Ideal.ofBits .f32 0x40B06FAB#32
abbrev count : EReal := Ideal.ofBits .f32 0x4A800000#32

/-- One problem's loss from its twelve numbers: the residual's two operands per coordinate and the six
    entries of the triangular factor; every sum and product associated as written. -/
def nll (t0 t1 t2 p0 p1 p2 l00 l10 l11 l20 l21 l22 : EReal) : EReal :=
  half * ((((Ideal.div (t0 - p0) l00 * Ideal.div (t0 - p0) l00
      + Ideal.div ((t1 - p1) - l10 * Ideal.div (t0 - p0) l00) l11 * Ideal.div ((t1 - p1) - l10 * Ideal.div (t0 - p0) l00) l11)
      + Ideal.div (((t2 - p2) - l20 * Ideal.div (t0 - p0) l00)
            - l21 * Ideal.div ((t1 - p1) - l10 * Ideal.div (t0 - p0) l00) l11) l22
          * Ideal.div (((t2 - p2) - l20 * Ideal.div (t0 - p0) l00)
            - l21 * Ideal.div ((t1 - p1) - l10 * Ideal.div (t0 - p0) l00) l11) l22)
    + two * ((Ideal.log l00 + Ideal.log l11) + Ideal.log l22)) + cLog)

/-- The shapes of the argument arrays and of the batch of problems. -/
abbrev SY : Shape := ⟨4, ![256, 512, 32, 3]⟩
abbrev SL : Shape := ⟨5, ![256, 512, 32, 3, 3]⟩
abbrev SB : Shape := ⟨3, ![256, 512, 32]⟩
/-- The batch cut into 512 tiles of 8192 consecutive problems. -/
abbrev ST : Shape := ⟨2, ![512, 8192]⟩
/-- A tile's rows of the flattened arrays. -/
abbrev SR3 : Shape := ⟨2, ![8192, 3]⟩
abbrev SR9 : Shape := ⟨2, ![8192, 9]⟩

/-- The loss of problem `i` of the batch, read off the three argument arrays. -/
def nllAt (yt yp : SY.Idx → EReal) (L : SL.Idx → EReal) (i : SB.Idx) : EReal :=
  nll (yt (ix4 (i 0) (i 1) (i 2) (0 : Fin 3))) (yt (ix4 (i 0) (i 1) (i 2) (1 : Fin 3))) (yt (ix4 (i 0) (i 1) (i 2) (2 : Fin 3)))
    (yp (ix4 (i 0) (i 1) (i 2) (0 : Fin 3))) (yp (ix4 (i 0) (i 1) (i 2) (1 : Fin 3))) (yp (ix4 (i 0) (i 1) (i 2) (2 : Fin 3)))
    (L (ix5 (i 0) (i 1) (i 2) (0 : Fin 3) (0 : Fin 3))) (L (ix5 (i 0) (i 1) (i 2) (1 : Fin 3) (0 : Fin 3)))
    (L (ix5 (i 0) (i 1) (i 2) (1 : Fin 3) (1 : Fin 3))) (L (ix5 (i 0) (i 1) (i 2) (2 : Fin 3) (0 : Fin 3)))
    (L (ix5 (i 0) (i 1) (i 2) (2 : Fin 3) (1 : Fin 3))) (L (ix5 (i 0) (i 1) (i 2) (2 : Fin 3) (2 : Fin 3)))

/-- The mean loss: the sum over the whole batch divided by the number of problems. -/
def meanNll (yt yp : SY.Idx → EReal) (L : SL.Idx → EReal) : EReal :=
  Ideal.div (∑ i : SB.Idx, nllAt yt yp L i) count

/-- The loss of row `q` of a tile, read off the tile's rows of the flattened arrays: the factor's
    entries sit in columns 0, 3, 4, 6, 7, 8 of its nine. -/
def rowNll (X0 X1 : SR3.Idx → EReal) (X2 : SR9.Idx → EReal) (q : Fin 8192) : EReal :=
  nll (X0 (ix2 q (0 : Fin 3))) (X0 (ix2 q (1 : Fin 3))) (X0 (ix2 q (2 : Fin 3)))
    (X1 (ix2 q (0 : Fin 3))) (X1 (ix2 q (1 : Fin 3))) (X1 (ix2 q (2 : Fin 3)))
    (X2 (ix2 q (0 : Fin 9))) (X2 (ix2 q (3 : Fin 9))) (X2 (ix2 q (4 : Fin 9)))
    (X2 (ix2 q (6 : Fin 9))) (X2 (ix2 q (7 : Fin 9))) (X2 (ix2 q (8 : Fin 9)))

/-- A tile's sum of losses. -/
def tileSum (X0 X1 : SR3.Idx → EReal) (X2 : SR9.Idx → EReal) : EReal := ∑ q : Fin 8192, rowNll X0 X1 X2 q

/-- Tile `t`, row `q` is problem `8192·t + q` of the batch in row-major order. -/
def tileEquiv : ST.Idx ≃ SB.Idx := Shape.reshapeEquiv (s := SB) (s' := ST) (by decide)

/-- The row-major position of the problem that tile `t`, row `q` names. -/
theorem tileEquiv_pos (t : Fin 512) (q : Fin 8192) :
    (((tileEquiv (ix2 t q) 0).val * 512 + (tileEquiv (ix2 t q) 1).val) * 32 + (tileEquiv (ix2 t q) 2).val)
      = t.val * 8192 + q.val := by
  have h := Shape.rowMajor_reshapeEquiv (s := SB) (s' := ST) (by decide) (ix2 t q)
  rw [Shape.rowMajor_val_three, Shape.rowMajor_val_two] at h
  exact h

/-- Summing tile by tile, row by row, is summing over the batch: addition of extended reals is commutative
    and associative, so the order of the problems does not matter. -/
theorem sum_tiles (f : SB.Idx → EReal) :
    ∑ t : Fin 512, ∑ q : Fin 8192, f (tileEquiv (ix2 t q)) = ∑ i : SB.Idx, f i := by
  rw [← Equiv.sum_comp tileEquiv f, sum_idx2 (fun j => f (tileEquiv j))]

end Cert.Nll

end
-- ==== Proof.Payload.lean ====
/-
  The kernel body's arithmetic at the ideal values, read index by index.

  A tile holds 8192 problems, one per row: the two operands of the residual in the rows of two [8192, 3]
  blocks and the triangular factor's nine entries in the rows of an [8192, 9] block.  Column `k` of a block,
  flattened, reads at row `q` the block's entry `(q, k)`; so at row `q` the first payload is the squared norm
  of the forward substitution's solution and the second is twice the logarithm of the factor's determinant.
  Their sum plus the constant, halved, is the row's loss; the sum of the 8192 losses along the one row they
  are laid out in is the tile's sum of losses, which the accumulator gains.
-/
import proofs.«175528_j43868795961969_1_alg».proof.Proof.Gen.KernelIdeal.Skeleton
import proofs.«175528_j43868795961969_1_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- Column `k` of an [8192, 3] block, flattened to a vector, reads at row `q` the block at `(q, k)`. -/
theorem col3 (X : FVec Ideal S8192x3 .f32) (k : Nat) (hk : k < 3) (h : S8192x3.Slices ![0, k] S8192x1)
    (hc : S8192x1.ShapeCasts S8192) (q : Fin 8192) :
    shapeCast S8192 (extractStridedSlice S8192x1 ![0, k] X h) hc (ix1 q) = X (ix2 q ⟨k, hk⟩) := by
  refine (shapeCast_apply _ hc (ix1 q) (ix2 q (0 : Fin 1)) ?_).trans ?_
  · rw [Shape.rowMajor_val_two, Shape.rowMajor_val_one]
    show q.val * 1 + 0 = q.val
    omega
  · refine extractStridedSlice_apply _ X h (ix2 q (0 : Fin 1)) (ix2 q ⟨k, hk⟩) fun a => ?_
    match a with
    | ⟨0, _⟩ => show q.val = 0 + q.val; omega
    | ⟨1, _⟩ => show k = k + 0; omega

/-- Column `k` of an [8192, 9] block, flattened to a vector, reads at row `q` the block at `(q, k)`. -/
theorem col9 (X : FVec Ideal S8192x9 .f32) (k : Nat) (hk : k < 9) (h : S8192x9.Slices ![0, k] S8192x1)
    (hc : S8192x1.ShapeCasts S8192) (q : Fin 8192) :
    shapeCast S8192 (extractStridedSlice S8192x1 ![0, k] X h) hc (ix1 q) = X (ix2 q ⟨k, hk⟩) := by
  refine (shapeCast_apply _ hc (ix1 q) (ix2 q (0 : Fin 1)) ?_).trans ?_
  · rw [Shape.rowMajor_val_two, Shape.rowMajor_val_one]
    show q.val * 1 + 0 = q.val
    omega
  · refine extractStridedSlice_apply _ X h (ix2 q (0 : Fin 1)) (ix2 q ⟨k, hk⟩) fun a => ?_
    match a with
    | ⟨0, _⟩ => show q.val = 0 + q.val; omega
    | ⟨1, _⟩ => show k = k + 0; omega

/-- The lane sum: a vector laid out as one row, summed along the row from the zero accumulator, and read
    back as a scalar, is the sum of the vector's entries. -/
theorem laneSum (v : FVec Ideal S8192 .f32) (hc1 : S8192.ShapeCasts S1x8192) (hr : S1x8192.Reduces [1] S1)
    (hφ : FKind.Formats .f32) (hacc : (0x00000000#32 : BitVec 32) = FKind.add.neutral .f32 hφ)
    (hc2 : S1.ShapeCasts S1x1) (hp : ∀ a, (![0, 0] : Fin 2 → Nat) a < S1x1.size a) :
    extractAt ![0, 0] (shapeCast S1x1 (multiReduction (F := Ideal) .add [1] S1 (shapeCast S1x8192 v hc1) 0x00000000#32 hr hφ hacc) hc2) hp
      = ∑ q : Fin 8192, v (ix1 q) := by
  unfold extractAt
  refine (shapeCast_apply _ hc2 _ (ix1 (0 : Fin 1)) ?_).trans ?_
  · rw [Shape.rowMajor_val_one, Shape.rowMajor_val_two]
    rfl
  refine (Ideal.multiReduction_add_single _ _ hr hφ hacc (ix1 (0 : Fin 1))).trans ?_
  refine Finset.sum_congr rfl fun k _ => ?_
  refine shapeCast_apply v hc1 _ (ix1 k) ?_
  rw [Shape.rowMajor_val_one, Shape.rowMajor_val_two]
  show k.val = 0 * 8192 + k.val
  omega

/-- The squared norm of the solution `x` of `L x = t − p` by forward substitution, associated as the kernel computes it. -/
def quad (t0 t1 t2 p0 p1 p2 l00 l10 l11 l20 l21 l22 : EReal) : EReal :=
  (Ideal.div (t0 - p0) l00 * Ideal.div (t0 - p0) l00
      + Ideal.div ((t1 - p1) - l10 * Ideal.div (t0 - p0) l00) l11 * Ideal.div ((t1 - p1) - l10 * Ideal.div (t0 - p0) l00) l11)
      + Ideal.div (((t2 - p2) - l20 * Ideal.div (t0 - p0) l00)
            - l21 * Ideal.div ((t1 - p1) - l10 * Ideal.div (t0 - p0) l00) l11) l22
          * Ideal.div (((t2 - p2) - l20 * Ideal.div (t0 - p0) l00)
            - l21 * Ideal.div ((t1 - p1) - l10 * Ideal.div (t0 - p0) l00) l11) l22

/-- Twice the logarithm of the factor's determinant. -/
def logdet2 (l00 l11 l22 : EReal) : EReal :=
  Cert.Nll.two * ((Ideal.log l00 + Ideal.log l11) + Ideal.log l22)

/-- The first payload at row `q`: the squared norm of the row's solution. -/
theorem pay7_apply (X0 X1 : Vec Ideal S8192x3 .f32) (X2 : Vec Ideal S8192x9 .f32) (q : Fin 8192) :
    k0_pay7 (F := Ideal) X0 X1 X2 (ix1 q)
      = quad (X0 (ix2 q ⟨0, by omega⟩)) (X0 (ix2 q ⟨1, by omega⟩)) (X0 (ix2 q ⟨2, by omega⟩))
          (X1 (ix2 q ⟨0, by omega⟩)) (X1 (ix2 q ⟨1, by omega⟩)) (X1 (ix2 q ⟨2, by omega⟩))
          (X2 (ix2 q ⟨0, by omega⟩)) (X2 (ix2 q ⟨3, by omega⟩)) (X2 (ix2 q ⟨4, by omega⟩))
          (X2 (ix2 q ⟨6, by omega⟩)) (X2 (ix2 q ⟨7, by omega⟩)) (X2 (ix2 q ⟨8, by omega⟩)) := by
  unfold k0_pay7 k0_pay4 k0_pay5 k0_pay6 k0_pay3
  simp only [shapeCast_self, addf_apply, mulf_apply, subf_apply, divf_apply]
  rw [col3 _ 0 (by omega), col3 _ 1 (by omega), col3 _ 2 (by omega), col9 _ 0 (by omega), col9 _ 3 (by omega),
    col9 _ 4 (by omega), col9 _ 6 (by omega), col9 _ 7 (by omega), col9 _ 8 (by omega)]
  rfl

/-- The second payload at row `q`: twice the logarithm of the row's determinant. -/
theorem pay8_apply (X2 : Vec Ideal S8192x9 .f32) (q : Fin 8192) :
    k0_pay8 (F := Ideal) X2 (ix1 q)
      = logdet2 (X2 (ix2 q ⟨0, by omega⟩)) (X2 (ix2 q ⟨4, by omega⟩)) (X2 (ix2 q ⟨8, by omega⟩)) := by
  unfold k0_pay8 k0_pay4 k0_pay5 k0_pay6 k0_pay3
  simp only [shapeCast_self, addf_apply, mulf_apply, broadcast_apply]
  show Scalar.ofBits .f32 0x40000000#32 * ((FloatOps.log _ + FloatOps.log _) + FloatOps.log _) = _
  rw [col9 _ 0 (by omega), col9 _ 4 (by omega), col9 _ 8 (by omega)]
  rfl

/-- One row's loss, as the kernel assembles it from the two payloads, the constant and the half, is the
    specification's loss of that row. -/
theorem row_eq (X0 X1 : Vec Ideal S8192x3 .f32) (X2 : Vec Ideal S8192x9 .f32) (q : Fin 8192) :
    mulf (broadcast S8192 (Scalar.ofBits (F := Ideal) .f32 0x3F000000#32))
        (addf (addf (k0_pay7 (F := Ideal) X0 X1 X2) (k0_pay8 (F := Ideal) X2))
          (broadcast S8192 (Scalar.ofBits (F := Ideal) .f32 0x40B06FAB#32))) (ix1 q)
      = Cert.Nll.rowNll X0 X1 X2 q := by
  rw [mulf_apply, addf_apply, addf_apply, broadcast_apply, broadcast_apply, pay7_apply, pay8_apply]
  rfl

/-- What the first grid point stores into the accumulator before it adds: zero. -/
theorem reset_eq : (k0_pay2 (F := Ideal)) = fun _ => (0 : EReal) := by
  unfold k0_pay2
  show shapeCast S1x1 (broadcast S1x1 (Scalar.ofBits (F := Ideal) .f32 0x00000000#32)) shapeCasts_S1x1_S1x1 = _
  rw [shapeCast_self]
  funext j
  exact Ideal.ofBits_zero_f32

/-- The accumulator after a grid point: what it held plus the tile's sum of losses. -/
theorem pay_eq (X0 X1 : Vec Ideal S8192x3 .f32) (X2 : Vec Ideal S8192x9 .f32) (prev : Vec Ideal S1x1 .f32) :
    k0_pay1 (F := Ideal) (k0_pay7 X0 X1 X2) (k0_pay8 X2) prev = fun j => prev j + Cert.Nll.tileSum X0 X1 X2 := by
  funext j
  unfold k0_pay1
  simp only [shapeCast_self]
  rw [addf_apply, broadcast_apply]
  refine congrArg (prev j + ·) ?_
  refine (laneSum _ _ _ _ _ _ _).trans ?_
  unfold Cert.Nll.tileSum
  exact Finset.sum_congr rfl fun q _ => row_eq X0 X1 X2 q

end Cert.KernelIdeal.Pay

end
-- ==== Proof.Blocks.lean ====
import proofs.«175528_j43868795961969_1_alg».proof.Proof.Gen.KernelIdeal.Frame
import proofs.«175528_j43868795961969_1_alg».proof.Proof.Spec
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Tile t's rows of the three flattened arrays, as the kernel's input windows hold them at grid point t. -/
abbrev rows0 (c : Dev nD) (t : Fin cfg0.N) : Vec Ideal S8192x3 .f32 := iblk m c 0 t
abbrev rows1 (c : Dev nD) (t : Fin cfg0.N) : Vec Ideal S8192x3 .f32 := iblk m c 1 t
abbrev rows2 (c : Dev nD) (t : Fin cfg0.N) : Vec Ideal S8192x9 .f32 := iblk m c 2 t

/-- The block index of each input window at grid point t: (t, 0). -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

/-- The flattened arrays the region finds are the row-major reshapes of the three arguments. -/
theorem V0_eq (c : Dev nD) :
    (V m c main_v0 : S4194304x3.Idx → EReal)
      = shapeCast S4194304x3 (m ((c.tc : Thread nD τ).loc main_arg0)) Facts₀.shapeCasts_S256x512x32x3_S4194304x3 := by
  dsimp only [Gen.V, Gen.V0]
  simp only [Gen.hostOps0, List.flatten_cons, List.flatten_nil, List.append_nil, List.cons_append, List.nil_append]
  after_results
  rfl
theorem V1_eq (c : Dev nD) :
    (V m c main_v1 : S4194304x3.Idx → EReal)
      = shapeCast S4194304x3 (m ((c.tc : Thread nD τ).loc main_arg1)) Facts₀.shapeCasts_S256x512x32x3_S4194304x3 := by
  dsimp only [Gen.V, Gen.V0]
  simp only [Gen.hostOps0, List.flatten_cons, List.flatten_nil, List.append_nil, List.cons_append, List.nil_append]
  after_results
  rfl
theorem V2_eq (c : Dev nD) :
    (V m c main_v2 : S4194304x9.Idx → EReal)
      = shapeCast S4194304x9 (m ((c.tc : Thread nD τ).loc main_arg2)) Facts₀.shapeCasts_S256x512x32x3x3_S4194304x9 := by
  dsimp only [Gen.V, Gen.V0]
  simp only [Gen.hostOps0, List.flatten_cons, List.flatten_nil, List.append_nil, List.cons_append, List.nil_append]
  after_results
  rfl

/-- Window 0's block at point t, row q, column k, is the flattened array at row 8192·t + q. -/
theorem rows0_flat (c : Dev nD) (t : Fin cfg0.N) (q : Fin 8192) (k : Fin 3) (i : S4194304x3.Idx)
    (h0 : (i 0).val = t.val * 8192 + q.val) (h1 : (i 1).val = k.val) :
    rows0 m c t (ix2 q k) = V m c main_v0 i := by
  show iblk m c 0 t (ix2 q k) = _
  unfold iblk
  rw [View.read_apply]
  show V m c main_v0 (((cfg0.win 0).blk t).view.emb (ix2 q k)) = V m c main_v0 i
  refine congrArg _ (funext fun a => Fin.ext ?_)
  match a with
  | ⟨0, _⟩ => show win0_0.index t 0 * 8192 + 1 * q.val = (i 0).val; rw [(idx0 t).1, h0]; omega
  | ⟨1, _⟩ => show win0_0.index t 1 * 3 + 1 * k.val = (i 1).val; rw [(idx0 t).2, h1]; omega

/-- Row q of tile t of the first array, column k, is the first argument at the problem (b, s, j) whose row-major
    position is 8192·t + q. -/
theorem rows0_at (c : Dev nD) (t : Fin cfg0.N) (q : Fin 8192) (k : Fin 3) (b : Fin 256) (s : Fin 512) (j : Fin 32)
    (h : (b.val * 512 + s.val) * 32 + j.val = t.val * 8192 + q.val) :
    rows0 m c t (ix2 q k) = m ((c.tc : Thread nD τ).loc main_arg0) (ix4 b s j k) := by
  have ht : t.val < 512 := lt_of_lt_of_eq t.isLt N_0
  rw [rows0_flat m c t q k (ix2 ⟨t.val * 8192 + q.val, by omega⟩ k) rfl rfl, V0_eq]
  refine shapeCast_apply _ _ _ _ ?_
  show ((⟨4, ![256, 512, 32, 3]⟩ : Shape).rowMajor (ix4 b s j k)).val
      = ((⟨2, ![4194304, 3]⟩ : Shape).rowMajor (ix2 (⟨t.val * 8192 + q.val, by omega⟩ : Fin 4194304) k)).val
  rw [Shape.rowMajor_val_four, Shape.rowMajor_val_two]
  show ((b.val * 512 + s.val) * 32 + j.val) * 3 + k.val = (t.val * 8192 + q.val) * 3 + k.val
  omega

/-- Window 1's block at point t, row q, column k, is the flattened array at row 8192·t + q. -/
theorem rows1_flat (c : Dev nD) (t : Fin cfg0.N) (q : Fin 8192) (k : Fin 3) (i : S4194304x3.Idx)
    (h0 : (i 0).val = t.val * 8192 + q.val) (h1 : (i 1).val = k.val) :
    rows1 m c t (ix2 q k) = V m c main_v1 i := by
  show iblk m c 1 t (ix2 q k) = _
  unfold iblk
  rw [View.read_apply]
  show V m c main_v1 (((cfg0.win 1).blk t).view.emb (ix2 q k)) = V m c main_v1 i
  refine congrArg _ (funext fun a => Fin.ext ?_)
  match a with
  | ⟨0, _⟩ => show win0_1.index t 0 * 8192 + 1 * q.val = (i 0).val; rw [(idx1 t).1, h0]; omega
  | ⟨1, _⟩ => show win0_1.index t 1 * 3 + 1 * k.val = (i 1).val; rw [(idx1 t).2, h1]; omega

/-- The same for the second array. -/
theorem rows1_at (c : Dev nD) (t : Fin cfg0.N) (q : Fin 8192) (k : Fin 3) (b : Fin 256) (s : Fin 512) (j : Fin 32)
    (h : (b.val * 512 + s.val) * 32 + j.val = t.val * 8192 + q.val) :
    rows1 m c t (ix2 q k) = m ((c.tc : Thread nD τ).loc main_arg1) (ix4 b s j k) := by
  have ht : t.val < 512 := lt_of_lt_of_eq t.isLt N_0
  rw [rows1_flat m c t q k (ix2 ⟨t.val * 8192 + q.val, by omega⟩ k) rfl rfl, V1_eq]
  refine shapeCast_apply _ _ _ _ ?_
  show ((⟨4, ![256, 512, 32, 3]⟩ : Shape).rowMajor (ix4 b s j k)).val
      = ((⟨2, ![4194304, 3]⟩ : Shape).rowMajor (ix2 (⟨t.val * 8192 + q.val, by omega⟩ : Fin 4194304) k)).val
  rw [Shape.rowMajor_val_four, Shape.rowMajor_val_two]
  show ((b.val * 512 + s.val) * 32 + j.val) * 3 + k.val = (t.val * 8192 + q.val) * 3 + k.val
  omega

/-- Window 2's block at point t, row q, column k, is the flattened array at row 8192·t + q. -/
theorem rows2_flat (c : Dev nD) (t : Fin cfg0.N) (q : Fin 8192) (k : Fin 9) (i : S4194304x9.Idx)
    (h0 : (i 0).val = t.val * 8192 + q.val) (h1 : (i 1).val = k.val) :
    rows2 m c t (ix2 q k) = V m c main_v2 i := by
  show iblk m c 2 t (ix2 q k) = _
  unfold iblk
  rw [View.read_apply]
  show V m c main_v2 (((cfg0.win 2).blk t).view.emb (ix2 q k)) = V m c main_v2 i
  refine congrArg _ (funext fun a => Fin.ext ?_)
  match a with
  | ⟨0, _⟩ => show win0_2.index t 0 * 8192 + 1 * q.val = (i 0).val; rw [(idx2 t).1, h0]; omega
  | ⟨1, _⟩ => show win0_2.index t 1 * 9 + 1 * k.val = (i 1).val; rw [(idx2 t).2, h1]; omega

/-- Column k = 3·k1 + k2 of the flattened factor is its entry (k1, k2). -/
theorem rows2_at (c : Dev nD) (t : Fin cfg0.N) (q : Fin 8192) (k : Fin 9) (b : Fin 256) (s : Fin 512) (j : Fin 32)
    (k1 k2 : Fin 3) (h : (b.val * 512 + s.val) * 32 + j.val = t.val * 8192 + q.val) (hk : k.val = 3 * k1.val + k2.val) :
    rows2 m c t (ix2 q k) = m ((c.tc : Thread nD τ).loc main_arg2) (ix5 b s j k1 k2) := by
  have ht : t.val < 512 := lt_of_lt_of_eq t.isLt N_0
  rw [rows2_flat m c t q k (ix2 ⟨t.val * 8192 + q.val, by omega⟩ k) rfl rfl, V2_eq]
  refine shapeCast_apply _ _ _ _ ?_
  show ((⟨5, ![256, 512, 32, 3, 3]⟩ : Shape).rowMajor (ix5 b s j k1 k2)).val
      = ((⟨2, ![4194304, 9]⟩ : Shape).rowMajor (ix2 (⟨t.val * 8192 + q.val, by omega⟩ : Fin 4194304) k)).val
  rw [Shape.rowMajor_val_five, Shape.rowMajor_val_two]
  show (((b.val * 512 + s.val) * 32 + j.val) * 3 + k1.val) * 3 + k2.val = (t.val * 8192 + q.val) * 9 + k.val
  omega

/-- Row q of tile t is problem 8192·t + q of the batch: its loss read off the windows is its loss read off the arguments. -/
theorem rowNll_eq (c : Dev nD) (t : Fin cfg0.N) (q : Fin 8192) :
    Cert.Nll.rowNll (rows0 m c t) (rows1 m c t) (rows2 m c t) q
      = Cert.Nll.nllAt (m ((c.tc : Thread nD τ).loc main_arg0)) (m ((c.tc : Thread nD τ).loc main_arg1)) (m ((c.tc : Thread nD τ).loc main_arg2))
          (Cert.Nll.tileEquiv (ix2 (Fin.cast (show cfg0.N = 512 from N_0) t) q)) := by
  have hp := Cert.Nll.tileEquiv_pos (Fin.cast (show cfg0.N = 512 from N_0) t) q
  generalize Cert.Nll.tileEquiv (ix2 (Fin.cast (show cfg0.N = 512 from N_0) t) q) = i at hp ⊢
  have hp' : ((i 0 : Fin 256).val * 512 + (i 1 : Fin 512).val) * 32 + (i 2 : Fin 32).val = t.val * 8192 + q.val := hp
  unfold Cert.Nll.rowNll Cert.Nll.nllAt
  rw [rows0_at m c t q 0 (i 0) (i 1) (i 2) hp', rows0_at m c t q 1 (i 0) (i 1) (i 2) hp', rows0_at m c t q 2 (i 0) (i 1) (i 2) hp',
    rows1_at m c t q 0 (i 0) (i 1) (i 2) hp', rows1_at m c t q 1 (i 0) (i 1) (i 2) hp', rows1_at m c t q 2 (i 0) (i 1) (i 2) hp',
    rows2_at m c t q 0 (i 0) (i 1) (i 2) 0 0 hp' rfl, rows2_at m c t q 3 (i 0) (i 1) (i 2) 1 0 hp' rfl,
    rows2_at m c t q 4 (i 0) (i 1) (i 2) 1 1 hp' rfl, rows2_at m c t q 6 (i 0) (i 1) (i 2) 2 0 hp' rfl,
    rows2_at m c t q 7 (i 0) (i 1) (i 2) 2 1 hp' rfl, rows2_at m c t q 8 (i 0) (i 1) (i 2) 2 2 hp' rfl]

/-- So a tile's sum of losses is the sum of its 8192 problems' losses. -/
theorem tileSum_eq (c : Dev nD) (t : Fin cfg0.N) :
    Cert.Nll.tileSum (rows0 m c t) (rows1 m c t) (rows2 m c t)
      = ∑ q : Fin 8192, Cert.Nll.nllAt (m ((c.tc : Thread nD τ).loc main_arg0)) (m ((c.tc : Thread nD τ).loc main_arg1)) (m ((c.tc : Thread nD τ).loc main_arg2))
          (Cert.Nll.tileEquiv (ix2 (Fin.cast (show cfg0.N = 512 from N_0) t) q)) := by
  unfold Cert.Nll.tileSum
  exact Finset.sum_congr rfl fun q _ => rowNll_eq m c t q

end Cert.KernelIdeal.Blocks

end
-- ==== Proof.KValue.lean ====
/-
  What the kernel program computes, read off its run at the ideal instance.

  The grid has 512 points; point t stages rows 8192·t … 8192·t + 8191 of the three flattened argument arrays.
  The body keeps a one-element accumulator across the grid: zero plus the first tile's sum of losses after the
  first point, one more tile's sum after each later point (induction on the point), so after the last point the
  accumulator — which the last point also copies to the [1, 1] output block, the only block ever written back —
  holds the sum of all 512 tiles' sums.  The host lines after the kernel reshape that block to a scalar and divide
  it by 2²².  A tile's sum is the sum of the losses of its 8192 problems, and summing tile by tile is summing over
  the whole batch, so the result is the mean loss of the specification.
-/
import proofs.«175528_j43868795961969_1_alg».proof.Proof.Pieces
import proofs.«175528_j43868795961969_1_alg».proof.Proof.Payload
import proofs.«175528_j43868795961969_1_alg».proof.Proof.Blocks
import proofs.«175528_j43868795961969_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx
open Cert.KernelIdeal.Blocks (rows0 rows1 rows2)

variable (m : (ℓ : Loc nD τ sig) → Buf (Elt Ideal) ℓ) (ρ : Dev nD → PrngReg)

/-- The sum of losses of the tile grid point `n` reads (zero past the grid). -/
def tile (c : Dev nD) (n : ℕ) : EReal :=
  if h : n < cfg0.N then Cert.Nll.tileSum (rows0 m c ⟨n, h⟩) (rows1 m c ⟨n, h⟩) (rows2 m c ⟨n, h⟩) else 0

theorem tile_of_lt (c : Dev nD) (n : ℕ) (h : n < cfg0.N) :
    tile m c n = Cert.Nll.tileSum (rows0 m c ⟨n, h⟩) (rows1 m c ⟨n, h⟩) (rows2 m c ⟨n, h⟩) := dif_pos h

/-- THE ACCUMULATOR after grid point `n` holds the sum of the tiles' sums up to `n`: zero plus the first tile's
    at the first point, then one more tile's at every point — by induction on the point. -/
theorem acc_eq (c : Dev nD) : ∀ (n : ℕ) (h : n < cfg0.N),
    (outsAt0 m c n h).2 = fun _ => ∑ k ∈ Finset.range (n + 1), tile m c k
  | 0, h => by
    rw [outsAt0_A m c ⟨0, h⟩ rfl (by dsimp only; omega)]
    dsimp only
    refine (Pieces.soutA_eq (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) scM0_0 (Memref.isWhole_whole _) _ _
      (rows0 m c ⟨0, h⟩) (rows1 m c ⟨0, h⟩) (rows2 m c ⟨0, h⟩)).trans ?_
    rw [Pay.pay_eq, Pay.reset_eq]
    funext j
    rw [Finset.sum_range_one, tile_of_lt m c 0 h, zero_add]
  | n + 1, h => by
    have hN : cfg0.N = 512 := N_0
    have h0 : ¬(⟨n + 1, h⟩ : Fin cfg0.N).val % 512 = 0 := by dsimp only; omega
    have ih := acc_eq c n (Nat.lt_of_succ_lt h)
    by_cases h1 : (⟨n + 1, h⟩ : Fin cfg0.N).val % 512 = 511
    · rw [outsAt0_C m c ⟨n + 1, h⟩ h0 h1]
      dsimp only
      refine (Pieces.soutC_eq (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _) _ _
        (rows0 m c ⟨n + 1, h⟩) (rows1 m c ⟨n + 1, h⟩) (rows2 m c ⟨n + 1, h⟩) (outsAt0 m c n (Nat.lt_of_succ_lt h)).2).trans ?_
      rw [Pay.pay_eq, ih]
      funext j
      rw [Finset.sum_range_succ _ (n + 1), tile_of_lt m c (n + 1) h]
    · rw [outsAt0_B m c ⟨n + 1, h⟩ h0 h1]
      dsimp only
      refine (Pieces.soutB_eq (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _) _ _
        (rows0 m c ⟨n + 1, h⟩) (rows1 m c ⟨n + 1, h⟩) (rows2 m c ⟨n + 1, h⟩) (outsAt0 m c n (Nat.lt_of_succ_lt h)).2).trans ?_
      rw [Pay.pay_eq, ih]
      funext j
      rw [Finset.sum_range_succ _ (n + 1), tile_of_lt m c (n + 1) h]

/-- The sum of all 512 tiles' sums. -/
def total (c : Dev nD) : EReal := ∑ k ∈ Finset.range 512, tile m c k

/-- At the last grid point the output block receives the accumulator: the total. -/
theorem out_eq (c : Dev nD) (h : 511 < cfg0.N) : (outsAt0 m c 511 h).1 = fun _ => total m c := by
  have h0 : ¬(⟨511, h⟩ : Fin cfg0.N).val % 512 = 0 := by dsimp only; omega
  have h1 : (⟨511, h⟩ : Fin cfg0.N).val % 512 = 511 := by dsimp only
  rw [outsAt0_C m c ⟨511, h⟩ h0 h1]
  dsimp only
  refine (Pieces.outC_eq (F := Ideal) c (grid0.coords ⟨511, h⟩) (ms0_0 ⟨511, h⟩) (hs0_0 ⟨511, h⟩) (ms0_1 ⟨511, h⟩) (hs0_1 ⟨511, h⟩)
    (ms0_2 ⟨511, h⟩) (hs0_2 ⟨511, h⟩) (ms0_3 ⟨511, h⟩) (hs0_3 ⟨511, h⟩) scM0_0 (Memref.isWhole_whole _) _ _
    (rows0 m c ⟨511, h⟩) (rows1 m c ⟨511, h⟩) (rows2 m c ⟨511, h⟩) (outsAt0 m c 510 (Nat.lt_of_succ_lt h)).2).trans ?_
  rw [Pay.pay_eq, acc_eq m c 510 (Nat.lt_of_succ_lt h)]
  funext j
  unfold total
  rw [Finset.sum_range_succ _ 511, tile_of_lt m c 511 h]

/-- The result block: its one element is the total. -/
abbrev result (c : Dev nD) : Buf (Elt Ideal) ((c : Thread nD τ).loc main_v3) := fun _ => total m c

/-- The output window's block index is (0, 0) at every grid point. -/
theorem xsize3 : ∀ (t : Fin cfg0.N) (a : Fin 2), win0_3.xsize (grid0.coords t) a = 1 :=
  (by decide +kernel : ∀ (t : Fin grid0.N) (a : Fin 2), win0_3.xsize (grid0.coords t) a = 1)

theorem idx3 : ∀ (t : Fin cfg0.N) (a : Fin 2), win0_3.index t a = 0 :=
  (by decide +kernel : ∀ (t : Fin grid0.N) (a : Fin 2), win0_3.index t a = 0)

/-- The one write-back, after the last grid point, writes the total: block (0, 0) of the [1, 1] array is the array. -/
theorem flushed_eq (c : Dev nD) (t : Fin cfg0.N) (hf : (cfg0.win 3).flush t = true) :
    (dats m 0 c).flushed 3 t = ((cfg0.win 3).blk t).view.read (Elt Ideal) (result m c) := by
  have hN : cfg0.N = 512 := N_0
  have h511 : t.val = 511 := by have := (flush0_3 t).mp hf; have := t.isLt; omega
  obtain ⟨n, hn⟩ := t
  dsimp only at h511
  subst h511
  show (cfg0.win 3).cut (grid0.coords ⟨511, hn⟩) ((dats m 0 c).after 3 ⟨511, hn⟩) = _
  rw [after0_3, out_eq]
  have hz' : (fun a => win0_3.index ⟨511, hn⟩ a * main_v3.ty.shape.size a) = fun _ => 0 :=
    funext fun a => by rw [idx3]; exact Nat.zero_mul _
  exact (Memref.read_access_unit_zero (Elt Ideal) main_v3 hz' (fun a => by rw [congrFun hz' a]; simp) (result m c)).symm

/-- So the kernel's output array ends holding the total: the last grid point's block covers it. -/
theorem final_o (c : Dev nD) : (dats m 0 c).arrAt 3 cfg0.N = result m c :=
  (dats m 0 c).arrAt_eq_of_cover 3 (result m c) (flushed_eq m c) fun i => by
    have hN : cfg0.N = 512 := N_0
    have h511 : 511 < cfg0.N := by omega
    refine ⟨⟨511, h511⟩, (flush0_3 ⟨511, h511⟩).mpr (by dsimp only), ?_⟩
    show i ∈ ((View.whole main_v3).slice (win0_3.rect ⟨511, h511⟩)).set
    rw [View.set_slice_whole, Rect.mem_set_unit]
    intro a
    have h0 : (i 0 : Nat) < 1 := (i 0).isLt
    have h1 : (i 1 : Nat) < 1 := (i 1).isLt
    match a with
    | ⟨0, _⟩ =>
      show win0_3.index ⟨511, h511⟩ 0 * win0_3.size 0 ≤ (i 0 : Nat) ∧ (i 0 : Nat) < win0_3.index ⟨511, h511⟩ 0 * win0_3.size 0 + win0_3.xsize (grid0.coords ⟨511, h511⟩) 0
      rw [idx3, xsize3]; omega
    | ⟨1, _⟩ =>
      show win0_3.index ⟨511, h511⟩ 1 * win0_3.size 1 ≤ (i 1 : Nat) ∧ (i 1 : Nat) < win0_3.index ⟨511, h511⟩ 1 * win0_3.size 1 + win0_3.xsize (grid0.coords ⟨511, h511⟩) 1
      rw [idx3, xsize3]; omega

/-- The program's result: the total divided by the number of problems. -/
def resultK (c : Dev nD) : Buf (Elt Ideal) ((c.tc : Thread nD τ).loc main_v5) := fun _ => Ideal.div (total m c) Cert.Nll.count

/-- The host lines after the kernel reshape its [1, 1] output to a scalar and divide it by 2²². -/
theorem tail_eq (c : Dev nD) :
    Pipeline.afterTail₀ cfgs (dats m) 0 (V0 m) [hostOps1] c main_v5 = resultK m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.tc.devRef main_v3) = result m c :=
    (Pipeline.withArrays_arr spec0 launch0.win.arr_inj c _ _ 3).trans (final_o m c)
  rw [e]
  funext i
  rfl

/-- THE KERNEL'S RUN, READ: every weakly fair execution ends with the result at the total over the count and the
    arguments unchanged. -/
theorem run_total : θ_run defs (onTc (τ := τ) (main (F := Ideal))) ⟨m, fun _ => 0, ρ⟩ fun r => ∀ c : Dev nD,
      r.2.mem ((c.tc : Thread nD τ).loc main_v5) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The total is the sum of the losses of all problems of the batch: tile by tile, row by row, every problem once. -/
theorem total_eq (c : Dev nD) :
    total m c = ∑ i : Cert.Nll.SB.Idx, Cert.Nll.nllAt (m ((c.tc : Thread nD τ).loc main_arg0))
      (m ((c.tc : Thread nD τ).loc main_arg1)) (m ((c.tc : Thread nD τ).loc main_arg2)) i := by
  unfold total
  rw [Finset.sum_range (fun k => tile m c k), ← Cert.Nll.sum_tiles]
  refine Finset.sum_congr rfl fun t _ => ?_
  have h : t.val < cfg0.N := by rw [show cfg0.N = 512 from N_0]; exact t.isLt
  rw [tile_of_lt m c t.val h, Blocks.tileSum_eq]
  rfl

/-- So the kernel's result is the mean loss of the specification. -/
theorem resultK_eq (c : Dev nD) :
    resultK m c = fun _ => Cert.Nll.meanNll (m ((c.tc : Thread nD τ).loc main_arg0))
      (m ((c.tc : Thread nD τ).loc main_arg1)) (m ((c.tc : Thread nD τ).loc main_arg2)) := by
  unfold resultK Cert.Nll.meanNll
  rw [total_eq]

end Cert.KernelIdeal.KValue

end
-- ==== Proof.RefDiag.lean ====
import proofs.«175528_j43868795961969_1_alg».proof.Proof.Gen.ReferenceIdeal.Read
import Idealize.ShloMosaic.Lib.ValueIdx
import Idealize.ShloMosaic.Lib.Pipeline.Value
import Idealize.ShloMosaic.Lib.StableHlo.Predicate

noncomputable section

namespace Cert.ReferenceIdeal.Diag

open Cert.ReferenceIdeal Cert.ReferenceIdeal.Gen Cert.ReferenceIdeal.Read Idealize.ShloMosaic Idealize.ShloMosaic.ValueIdx

variable {F : FTy → Type} [FloatOps F]

/-! ## The start-index table -/

/-- An index below 3 is not negative, so the wrap by 3 leaves it as it is. -/
theorem wrap_small : ∀ n : Fin 3,
    Scalar.select (IntOp.cmpi .slt (BitVec.ofNat 32 n.val) 0#32) (IntOp.addi (BitVec.ofNat 32 n.val) 3#32)
      (BitVec.ofNat 32 n.val) = BitVec.ofNat 32 n.val := by
  decide

/-- The first index column at row k: select (k < 0) (k + 3) k, which is k. -/
theorem col0_apply (k : Fin 3) : val_main_call0_v6 (F := F) (Shape.Idx.ofFin k) = BitVec.ofNat 32 k.val := by
  rw [val_main_call0_v6_apply, val_main_call0_v3_apply, val_main_call0_v5_apply, val_main_call0_v2_apply,
    val_main_call0_v4_apply, val_main_call0_c_apply, val_main_call0_c_0_apply, val_main_call0_v0_apply]
  exact wrap_small k

/-- The second index column at row k: the same computation, so k again. -/
theorem col1_apply (k : Fin 3) : val_main_call0_v11 (F := F) (Shape.Idx.ofFin k) = BitVec.ofNat 32 k.val := by
  rw [val_main_call0_v11_apply, val_main_call0_v8_apply, val_main_call0_v10_apply, val_main_call0_v7_apply,
    val_main_call0_v9_apply, val_main_call0_c_1_apply, val_main_call0_c_2_apply, val_main_call0_v1_apply]
  exact wrap_small k

/-- Column 0 of the table is the first piece of the concatenation. -/
theorem starts_apply0 (k : Fin 3) : val_main_call0_v14 (F := F) (ix2 k (0 : Fin 2)) = BitVec.ofNat 32 k.val := by
  unfold val_main_call0_v14
  rw [concatenate_pair_apply_left (t := S3x2) (s₁ := S3x1) (s₂ := S3x1) (1 : Fin 2) _ _ concatenates_S3x1_S3x1_S3x2_d1
    (ix2 k (0 : Fin 2)) rfl (ix2 k (0 : Fin 1)) (fun b => match b with | ⟨0, _⟩ => rfl | ⟨1, _⟩ => rfl)]
  rw [val_main_call0_v12_apply]
  exact col0_apply k

/-- Column 1 of the table is the second piece of the concatenation. -/
theorem starts_apply1 (k : Fin 3) : val_main_call0_v14 (F := F) (ix2 k (1 : Fin 2)) = BitVec.ofNat 32 k.val := by
  unfold val_main_call0_v14
  rw [concatenate_pair_apply_right (t := S3x2) (s₁ := S3x1) (s₂ := S3x1) (1 : Fin 2) _ _ concatenates_S3x1_S3x1_S3x2_d1
    (ix2 k (1 : Fin 2)) rfl rfl (ix2 k (0 : Fin 1))
    (fun b => match b with | ⟨0, _⟩ => fun _ => rfl | ⟨1, _⟩ => fun h => absurd rfl h) rfl]
  rw [val_main_call0_v13_apply]
  exact col1_apply k

/-- The gather's start indices: row k of the 3×2 table is (k, k) (an iota, its negative entries wrapped by 3: there are none). -/
theorem starts_apply (k : Fin 3) (c : Fin 2) : val_main_call0_v14 (F := F) (ix2 k c) = BitVec.ofNat 32 k.val := by
  match c with
  | ⟨0, _⟩ => exact starts_apply0 k
  | ⟨1, _⟩ => exact starts_apply1 k

/-! ## The gather read at an element -/

/-- The gather's dimension numbers. -/
abbrev gD : GatherDims S256x512x32x3x3 S3x2 S256x512x32x3 := gather_S256x512x32x3x3_S3x2_S256x512x32x3_012_34_n_n_34_1_2565123211

/-- On an operand axis outside the start index map the slice starts at 0. -/
theorem start_eq_zero (y : S256x512x32x3.Idx) (idx : IVec S3x2 32) (a : Fin 5) (ha : a ∉ gD.startIndexMap) :
    gD.start y idx a = 0 := by
  unfold GatherDims.start
  rw [dif_neg ha]

/-- Operand axes 0, 1, 2 are offset axes: the gather reads the result's own coordinate there. -/
theorem opCoord0 (y : S256x512x32x3.Idx) (idx : IVec S3x2 32) :
    gD.start y idx 0 + gD.batchCoord y 0 + gD.offCoord y 0 = (y 0).val := by
  rw [GatherDims.batchCoord_eq_zero _ _ _ List.not_mem_nil, Nat.add_zero, start_eq_zero _ _ _ (by decide), Nat.zero_add]
  unfold GatherDims.offCoord
  rw [dif_pos (by decide)]
  rfl

theorem opCoord1 (y : S256x512x32x3.Idx) (idx : IVec S3x2 32) :
    gD.start y idx 1 + gD.batchCoord y 1 + gD.offCoord y 1 = (y 1).val := by
  rw [GatherDims.batchCoord_eq_zero _ _ _ List.not_mem_nil, Nat.add_zero, start_eq_zero _ _ _ (by decide), Nat.zero_add]
  unfold GatherDims.offCoord
  rw [dif_pos (by decide)]
  rfl

theorem opCoord2 (y : S256x512x32x3.Idx) (idx : IVec S3x2 32) :
    gD.start y idx 2 + gD.batchCoord y 2 + gD.offCoord y 2 = (y 2).val := by
  rw [GatherDims.batchCoord_eq_zero _ _ _ List.not_mem_nil, Nat.add_zero, start_eq_zero _ _ _ (by decide), Nat.zero_add]
  unfold GatherDims.offCoord
  rw [dif_pos (by decide)]
  rfl

/-- A small natural read back from its 32-bit word, clamped to [0, 2]. -/
theorem clamp_small (k : Fin 3) : min (BitVec.ofNat 32 k.val).toInt.toNat (3 - 1) = k.val := by
  rw [StableHlo.Predicate.toInt_ofNat_small _ (by omega)]
  have := k.isLt
  simp only [Int.toNat_natCast]
  omega

/-- Operand axes 3 and 4 are collapsed axes in the start index map: the gather reads the clamped start index there. -/
theorem opCoord3 (y : S256x512x32x3.Idx) (idx : IVec S3x2 32) :
    gD.start y idx 3 + gD.batchCoord y 3 + gD.offCoord y 3 = min (idx (ix2 (y 3) 0)).toInt.toNat (3 - 1) := by
  rw [GatherDims.batchCoord_eq_zero _ _ _ List.not_mem_nil, Nat.add_zero,
    GatherDims.offCoord_eq_zero _ _ _ (by decide), Nat.add_zero]
  unfold GatherDims.start
  rw [dif_pos (by decide)]
  have hsi : gD.siIdx y ⟨List.idxOf (3 : Fin 5) gD.startIndexMap, List.idxOf_lt_length_iff.2 (by decide)⟩ = ix2 (y 3) 0 := by
    funext c; refine Fin.ext ?_
    match c with
    | ⟨0, _⟩ => rfl
    | ⟨1, _⟩ => rfl
  rw [hsi]
  rfl

theorem opCoord4 (y : S256x512x32x3.Idx) (idx : IVec S3x2 32) :
    gD.start y idx 4 + gD.batchCoord y 4 + gD.offCoord y 4 = min (idx (ix2 (y 3) 1)).toInt.toNat (3 - 1) := by
  rw [GatherDims.batchCoord_eq_zero _ _ _ List.not_mem_nil, Nat.add_zero,
    GatherDims.offCoord_eq_zero _ _ _ (by decide), Nat.add_zero]
  unfold GatherDims.start
  rw [dif_pos (by decide)]
  have hsi : gD.siIdx y ⟨List.idxOf (4 : Fin 5) gD.startIndexMap, List.idxOf_lt_length_iff.2 (by decide)⟩ = ix2 (y 3) 1 := by
    funext c; refine Fin.ext ?_
    match c with
    | ⟨0, _⟩ => rfl
    | ⟨1, _⟩ => rfl
  rw [hsi]
  rfl

/-- The gather over a start-index table whose row k is (k, k) reads the operand's (k, k) entries. -/
theorem gather_diag {α : Type} (x : S256x512x32x3x3.Idx → α) (idx : IVec S3x2 32)
    (hidx : ∀ (k : Fin 3) (c : Fin 2), idx (ix2 k c) = BitVec.ofNat 32 k.val)
    (b : Fin 256) (s : Fin 512) (j : Fin 32) (k : Fin 3) :
    Host.gather gD x idx (ix4 b s j k) = x (ix5 b s j k k) := by
  unfold Host.gather
  congr 1
  funext a
  refine Fin.ext ?_
  match a with
  | ⟨0, _⟩ => exact opCoord0 (ix4 b s j k) idx
  | ⟨1, _⟩ => exact opCoord1 (ix4 b s j k) idx
  | ⟨2, _⟩ => exact opCoord2 (ix4 b s j k) idx
  | ⟨3, _⟩ => exact (opCoord3 (ix4 b s j k) idx).trans (by rw [hidx]; exact clamp_small k)
  | ⟨4, _⟩ => exact (opCoord4 (ix4 b s j k) idx).trans (by rw [hidx]; exact clamp_small k)

/-- The diagonal: element (b, s, j, k) of the gather is the factor's entry (k, k) of problem (b, s, j). -/
theorem diag_apply (x2 : (⟨S256x512x32x3x3, .f32⟩ : BufTy).Contents (Elt F)) (b : Fin 256) (s : Fin 512) (j : Fin 32) (k : Fin 3) :
    val_main_v0 (F := F) x2 (ix4 b s j k) = x2 (ix5 b s j k k) := by
  unfold val_main_v0
  exact gather_diag x2 (val_main_call0_v14 (F := F)) starts_apply b s j k

end Cert.ReferenceIdeal.Diag

end
-- ==== Proof.RefValue.lean ====
import proofs.«175528_j43868795961969_1_alg».proof.Proof.Gen.ReferenceIdeal.Read
import proofs.«175528_j43868795961969_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## Indices: a reshape to the batch followed by a unit slice reads one named coordinate -/

section Indices
variable (b : Fin 256) (s : Fin 512) (j : Fin 32)

/-- Problem (b, s, j) sits at row-major position (b·512 + s)·32 + j; dividing back gives the coordinates. -/
theorem pos_hi (b s j : Nat) (hs : s < 512) (hj : j < 32) : ((b * 512 + s) * 32 + j) / 16384 = b := by omega
theorem pos_mid (b s j : Nat) (hs : s < 512) (hj : j < 32) : ((b * 512 + s) * 32 + j) / 32 % 512 = s := by omega
theorem pos_lo (b s j : Nat) (hj : j < 32) : ((b * 512 + s) * 32 + j) / 1 % 32 = j := by omega

/-- The reshape from [256,512,32,1] reads (b, s, j, 0). -/
theorem idx_v7 : idx_main_v7 (ix3 b s j) = ix4 b s j (0 : Fin 1) := by
  funext a
  refine Fin.ext ?_
  match a with
  | ⟨0, _⟩ => exact pos_hi b.val s.val j.val s.isLt j.isLt
  | ⟨1, _⟩ => exact pos_mid b.val s.val j.val s.isLt j.isLt
  | ⟨2, _⟩ => exact pos_lo b.val s.val j.val j.isLt
  | ⟨3, _⟩ => rfl
theorem idx_v12 : idx_main_v12 (ix3 b s j) = ix4 b s j (0 : Fin 1) := idx_v7 b s j
theorem idx_v21 : idx_main_v21 (ix3 b s j) = ix4 b s j (0 : Fin 1) := idx_v7 b s j

/-- The reshape from [256,512,32,1,1] reads (b, s, j, 0, 0). -/
theorem idx_v9 : idx_main_v9 (ix3 b s j) = ix5 b s j (0 : Fin 1) (0 : Fin 1) := by
  funext a
  refine Fin.ext ?_
  match a with
  | ⟨0, _⟩ => exact pos_hi b.val s.val j.val s.isLt j.isLt
  | ⟨1, _⟩ => exact pos_mid b.val s.val j.val s.isLt j.isLt
  | ⟨2, _⟩ => exact pos_lo b.val s.val j.val j.isLt
  | ⟨3, _⟩ => rfl
  | ⟨4, _⟩ => rfl
theorem idx_v14 : idx_main_v14 (ix3 b s j) = ix5 b s j (0 : Fin 1) (0 : Fin 1) := idx_v9 b s j
theorem idx_v18 : idx_main_v18 (ix3 b s j) = ix5 b s j (0 : Fin 1) (0 : Fin 1) := idx_v9 b s j
theorem idx_v23 : idx_main_v23 (ix3 b s j) = ix5 b s j (0 : Fin 1) (0 : Fin 1) := idx_v9 b s j
theorem idx_v27 : idx_main_v27 (ix3 b s j) = ix5 b s j (0 : Fin 1) (0 : Fin 1) := idx_v9 b s j
theorem idx_v31 : idx_main_v31 (ix3 b s j) = ix5 b s j (0 : Fin 1) (0 : Fin 1) := idx_v9 b s j

/-- The unit slices of the residual at columns 0, 1, 2. -/
theorem idx_v6 : idx_main_v6 (ix4 b s j (0 : Fin 1)) = ix4 b s j (0 : Fin 3) := by
  funext a; refine Fin.ext ?_
  match a with | ⟨0, _⟩ => rfl | ⟨1, _⟩ => rfl | ⟨2, _⟩ => rfl | ⟨3, _⟩ => rfl
theorem idx_v11 : idx_main_v11 (ix4 b s j (0 : Fin 1)) = ix4 b s j (1 : Fin 3) := by
  funext a; refine Fin.ext ?_
  match a with | ⟨0, _⟩ => rfl | ⟨1, _⟩ => rfl | ⟨2, _⟩ => rfl | ⟨3, _⟩ => rfl
theorem idx_v20 : idx_main_v20 (ix4 b s j (0 : Fin 1)) = ix4 b s j (2 : Fin 3) := by
  funext a; refine Fin.ext ?_
  match a with | ⟨0, _⟩ => rfl | ⟨1, _⟩ => rfl | ⟨2, _⟩ => rfl | ⟨3, _⟩ => rfl

/-- The unit slices of the factor at entries (0,0), (1,0), (1,1), (2,0), (2,1), (2,2). -/
theorem idx_v8 : idx_main_v8 (ix5 b s j (0 : Fin 1) (0 : Fin 1)) = ix5 b s j (0 : Fin 3) (0 : Fin 3) := by
  funext a; refine Fin.ext ?_
  match a with | ⟨0, _⟩ => rfl | ⟨1, _⟩ => rfl | ⟨2, _⟩ => rfl | ⟨3, _⟩ => rfl | ⟨4, _⟩ => rfl
theorem idx_v13 : idx_main_v13 (ix5 b s j (0 : Fin 1) (0 : Fin 1)) = ix5 b s j (1 : Fin 3) (0 : Fin 3) := by
  funext a; refine Fin.ext ?_
  match a with | ⟨0, _⟩ => rfl | ⟨1, _⟩ => rfl | ⟨2, _⟩ => rfl | ⟨3, _⟩ => rfl | ⟨4, _⟩ => rfl
theorem idx_v17 : idx_main_v17 (ix5 b s j (0 : Fin 1) (0 : Fin 1)) = ix5 b s j (1 : Fin 3) (1 : Fin 3) := by
  funext a; refine Fin.ext ?_
  match a with | ⟨0, _⟩ => rfl | ⟨1, _⟩ => rfl | ⟨2, _⟩ => rfl | ⟨3, _⟩ => rfl | ⟨4, _⟩ => rfl
theorem idx_v22 : idx_main_v22 (ix5 b s j (0 : Fin 1) (0 : Fin 1)) = ix5 b s j (2 : Fin 3) (0 : Fin 3) := by
  funext a; refine Fin.ext ?_
  match a with | ⟨0, _⟩ => rfl | ⟨1, _⟩ => rfl | ⟨2, _⟩ => rfl | ⟨3, _⟩ => rfl | ⟨4, _⟩ => rfl
theorem idx_v26 : idx_main_v26 (ix5 b s j (0 : Fin 1) (0 : Fin 1)) = ix5 b s j (2 : Fin 3) (1 : Fin 3) := by
  funext a; refine Fin.ext ?_
  match a with | ⟨0, _⟩ => rfl | ⟨1, _⟩ => rfl | ⟨2, _⟩ => rfl | ⟨3, _⟩ => rfl | ⟨4, _⟩ => rfl
theorem idx_v30 : idx_main_v30 (ix5 b s j (0 : Fin 1) (0 : Fin 1)) = ix5 b s j (2 : Fin 3) (2 : Fin 3) := by
  funext a; refine Fin.ext ?_
  match a with | ⟨0, _⟩ => rfl | ⟨1, _⟩ => rfl | ⟨2, _⟩ => rfl | ⟨3, _⟩ => rfl | ⟨4, _⟩ => rfl

/-- The sum over the last axis reads (b, s, j, k). -/
theorem idx_v2 (k : Fin 3) : idx_main_v2 (ix3 b s j) k = ix4 b s j k := by
  funext a; refine Fin.ext ?_
  match a with | ⟨0, _⟩ => rfl | ⟨1, _⟩ => rfl | ⟨2, _⟩ => rfl | ⟨3, _⟩ => rfl

end Indices

/-! ## The stages at problem (b, s, j) -/

section Values
variable (x0 x1 : (⟨S256x512x32x3, .f32⟩ : BufTy).Contents (Elt Ideal)) (x2 : (⟨S256x512x32x3x3, .f32⟩ : BufTy).Contents (Elt Ideal))
variable (b : Fin 256) (s : Fin 512) (j : Fin 32)

/-- The residual's three coordinates. -/
theorem v7_at : val_main_v7 (F := Ideal) x0 x1 (ix3 b s j) = x0 (ix4 b s j (0 : Fin 3)) - x1 (ix4 b s j (0 : Fin 3)) := by
  rw [val_main_v7_apply, idx_v7, val_main_v6_apply, idx_v6, val_main_v5_apply]; rfl
theorem v12_at : val_main_v12 (F := Ideal) x0 x1 (ix3 b s j) = x0 (ix4 b s j (1 : Fin 3)) - x1 (ix4 b s j (1 : Fin 3)) := by
  rw [val_main_v12_apply, idx_v12, val_main_v11_apply, idx_v11, val_main_v5_apply]; rfl
theorem v21_at : val_main_v21 (F := Ideal) x0 x1 (ix3 b s j) = x0 (ix4 b s j (2 : Fin 3)) - x1 (ix4 b s j (2 : Fin 3)) := by
  rw [val_main_v21_apply, idx_v21, val_main_v20_apply, idx_v20, val_main_v5_apply]; rfl

/-- The factor's six entries. -/
theorem v9_at : val_main_v9 (F := Ideal) x2 (ix3 b s j) = x2 (ix5 b s j (0 : Fin 3) (0 : Fin 3)) := by
  rw [val_main_v9_apply, idx_v9, val_main_v8_apply, idx_v8]
theorem v14_at : val_main_v14 (F := Ideal) x2 (ix3 b s j) = x2 (ix5 b s j (1 : Fin 3) (0 : Fin 3)) := by
  rw [val_main_v14_apply, idx_v14, val_main_v13_apply, idx_v13]
theorem v18_at : val_main_v18 (F := Ideal) x2 (ix3 b s j) = x2 (ix5 b s j (1 : Fin 3) (1 : Fin 3)) := by
  rw [val_main_v18_apply, idx_v18, val_main_v17_apply, idx_v17]
theorem v23_at : val_main_v23 (F := Ideal) x2 (ix3 b s j) = x2 (ix5 b s j (2 : Fin 3) (0 : Fin 3)) := by
  rw [val_main_v23_apply, idx_v23, val_main_v22_apply, idx_v22]
theorem v27_at : val_main_v27 (F := Ideal) x2 (ix3 b s j) = x2 (ix5 b s j (2 : Fin 3) (1 : Fin 3)) := by
  rw [val_main_v27_apply, idx_v27, val_main_v26_apply, idx_v26]
theorem v31_at : val_main_v31 (F := Ideal) x2 (ix3 b s j) = x2 (ix5 b s j (2 : Fin 3) (2 : Fin 3)) := by
  rw [val_main_v31_apply, idx_v31, val_main_v30_apply, idx_v30]

/-- Forward substitution, first unknown: d0 / l00. -/
theorem v10_at : val_main_v10 (F := Ideal) x0 x1 x2 (ix3 b s j)
    = Ideal.div (x0 (ix4 b s j (0 : Fin 3)) - x1 (ix4 b s j (0 : Fin 3))) (x2 (ix5 b s j (0 : Fin 3) (0 : Fin 3))) := by
  rw [val_main_v10_apply, v7_at, v9_at]; rfl

/-- Second unknown: (d1 − l10·x0) / l11. -/
theorem v19_at : val_main_v19 (F := Ideal) x0 x1 x2 (ix3 b s j)
    = Ideal.div ((x0 (ix4 b s j (1 : Fin 3)) - x1 (ix4 b s j (1 : Fin 3)))
        - x2 (ix5 b s j (1 : Fin 3) (0 : Fin 3))
          * Ideal.div (x0 (ix4 b s j (0 : Fin 3)) - x1 (ix4 b s j (0 : Fin 3))) (x2 (ix5 b s j (0 : Fin 3) (0 : Fin 3))))
      (x2 (ix5 b s j (1 : Fin 3) (1 : Fin 3))) := by
  rw [val_main_v19_apply, val_main_v16_apply, val_main_v15_apply, v12_at, v14_at, v10_at, v18_at]; rfl

/-- Third unknown: (d2 − l20·x0 − l21·x1) / l22. -/
theorem v32_at : val_main_v32 (F := Ideal) x0 x1 x2 (ix3 b s j)
    = Ideal.div (((x0 (ix4 b s j (2 : Fin 3)) - x1 (ix4 b s j (2 : Fin 3)))
          - x2 (ix5 b s j (2 : Fin 3) (0 : Fin 3))
            * Ideal.div (x0 (ix4 b s j (0 : Fin 3)) - x1 (ix4 b s j (0 : Fin 3))) (x2 (ix5 b s j (0 : Fin 3) (0 : Fin 3))))
        - x2 (ix5 b s j (2 : Fin 3) (1 : Fin 3))
          * Ideal.div ((x0 (ix4 b s j (1 : Fin 3)) - x1 (ix4 b s j (1 : Fin 3)))
              - x2 (ix5 b s j (1 : Fin 3) (0 : Fin 3))
                * Ideal.div (x0 (ix4 b s j (0 : Fin 3)) - x1 (ix4 b s j (0 : Fin 3))) (x2 (ix5 b s j (0 : Fin 3) (0 : Fin 3))))
            (x2 (ix5 b s j (1 : Fin 3) (1 : Fin 3))))
      (x2 (ix5 b s j (2 : Fin 3) (2 : Fin 3))) := by
  rw [val_main_v32_apply, val_main_v29_apply, val_main_v25_apply, val_main_v24_apply, val_main_v28_apply,
    v21_at, v23_at, v10_at, v27_at, v19_at, v31_at]; rfl

/-- The log-determinant term: twice the sum of the logarithms of the diagonal, the sum starting from zero. -/
theorem v4_at (hdiag : ∀ (b : Fin 256) (s : Fin 512) (j : Fin 32) (k : Fin 3), val_main_v0 (F := Ideal) x2 (ix4 b s j k) = x2 (ix5 b s j k k)) :
    val_main_v4 (F := Ideal) x2 (ix3 b s j)
      = Cert.Nll.two * ((Ideal.log (x2 (ix5 b s j (0 : Fin 3) (0 : Fin 3))) + Ideal.log (x2 (ix5 b s j (1 : Fin 3) (1 : Fin 3))))
          + Ideal.log (x2 (ix5 b s j (2 : Fin 3) (2 : Fin 3)))) := by
  rw [val_main_v4_apply, val_main_v3_apply, val_main_cst_0_apply, val_main_v2_apply, val_main_cst_apply, Fin.sum_univ_three,
    val_main_v1_apply, val_main_v1_apply, val_main_v1_apply, idx_v2, idx_v2, idx_v2, hdiag b s j 0, hdiag b s j 1, hdiag b s j 2]
  show Cert.Nll.two * (Ideal.ofBits .f32 0x00000000#32
      + ((Ideal.log (x2 (ix5 b s j (0 : Fin 3) (0 : Fin 3))) + Ideal.log (x2 (ix5 b s j (1 : Fin 3) (1 : Fin 3))))
          + Ideal.log (x2 (ix5 b s j (2 : Fin 3) (2 : Fin 3))))) = _
  rw [Ideal.ofBits_zero_f32, zero_add]

end Values

/-- The loss array before the mean, at problem (b, s, j): the specification's loss of that problem. The diagonal
    gather's reading is taken as a hypothesis (it is proved in a module of its own). -/
theorem loss_apply (x0 x1 : (⟨S256x512x32x3, .f32⟩ : BufTy).Contents (Elt Ideal)) (x2 : (⟨S256x512x32x3x3, .f32⟩ : BufTy).Contents (Elt Ideal))
    (hdiag : ∀ (b : Fin 256) (s : Fin 512) (j : Fin 32) (k : Fin 3), val_main_v0 (F := Ideal) x2 (ix4 b s j k) = x2 (ix5 b s j k k))
    (i : S256x512x32.Idx) :
    val_main_v42 (F := Ideal) x0 x1 x2 i = Cert.Nll.nllAt x0 x1 x2 i := by
  obtain ⟨b, s, j, rfl⟩ : ∃ (b : Fin 256) (s : Fin 512) (j : Fin 32), i = ix3 b s j := ⟨i 0, i 1, i 2, eq_ix3 i⟩
  rw [val_main_v42_apply, val_main_v41_apply, val_main_cst_2_apply, val_main_v40_apply, val_main_v39_apply, val_main_cst_1_apply,
    val_main_v38_apply, val_main_v37_apply, val_main_v35_apply, val_main_v33_apply, val_main_v34_apply, val_main_v36_apply,
    v10_at, v19_at, v32_at, v4_at x2 b s j hdiag]
  rfl

/-- The reference's result: the mean loss. -/
theorem result_eq (x0 x1 : (⟨S256x512x32x3, .f32⟩ : BufTy).Contents (Elt Ideal)) (x2 : (⟨S256x512x32x3x3, .f32⟩ : BufTy).Contents (Elt Ideal))
    (hdiag : ∀ (b : Fin 256) (s : Fin 512) (j : Fin 32) (k : Fin 3), val_main_v0 (F := Ideal) x2 (ix4 b s j k) = x2 (ix5 b s j k k)) :
    val_main_v44 (F := Ideal) x0 x1 x2 = fun _ => Cert.Nll.meanNll x0 x1 x2 := by
  funext i
  have hsum : ∑ q : S256x512x32.Idx, val_main_v42 (F := Ideal) x0 x1 x2 q = ∑ q : S256x512x32.Idx, Cert.Nll.nllAt x0 x1 x2 q :=
    Finset.sum_congr rfl (fun q _ => loss_apply x0 x1 x2 hdiag q)
  rw [val_main_v44_apply, val_main_v43_apply, val_main_cst_3_apply, val_main_cst_4_apply, hsum]
  show Ideal.div (Ideal.ofBits .f32 0x00000000#32 + ∑ q : S256x512x32.Idx, Cert.Nll.nllAt x0 x1 x2 q) Cert.Nll.count = _
  rw [Ideal.ofBits_zero_f32, zero_add]
  rfl

end Cert.ReferenceIdeal.RefValue

end
-- ==== Proof.lean ====
/-
  The negative log-likelihood of 256·512·32 three-dimensional Gaussians given by their Cholesky factors, averaged:
  a tiled kernel with a running accumulator against the plain array program.

  Per problem both programs solve L x = d (d the residual y − μ) by forward substitution,
      x0 = d0 / l00,   x1 = (d1 − l10·x0) / l11,   x2 = (d2 − l20·x0 − l21·x1) / l22,
  and form ½ · ((x0² + x1² + x2²) + 2·(log l00 + log l11 + log l22) + c) with the same single-precision
  constants, operation for operation in the same association; at the ideal instance every operation is the exact
  one on the extended reals, the host's quotient and logarithm are the kernel's, and the reference's sum of the
  three logarithms from a zero initial value is the kernel's chain of two additions.  The kernel sums the losses
  tile by tile into an accumulator and divides the total by 2²² on the host; the reference sums the whole batch at
  once and divides by the same number.  Addition of extended reals is commutative and associative, so the two
  totals are one sum; no finiteness of the inputs is used.

  The three frames are the generated ones (the reference's its generated run with the result dropped); the
  idealization rewrote nothing, so the sanctioned-idealization claim is trivial.
-/
import proofs.«175528_j43868795961969_1_alg».proof.Defs
import proofs.«175528_j43868795961969_1_alg».proof.Proof.Gen.Kernel
import proofs.«175528_j43868795961969_1_alg».proof.Proof.Gen.Kernel.Skeleton
import proofs.«175528_j43868795961969_1_alg».proof.Proof.Gen.Kernel.Launch
import proofs.«175528_j43868795961969_1_alg».proof.Proof.Gen.Kernel.Points
import proofs.«175528_j43868795961969_1_alg».proof.Proof.Gen.Kernel.Frame
import proofs.«175528_j43868795961969_1_alg».proof.Proof.Gen.KernelIdeal
import proofs.«175528_j43868795961969_1_alg».proof.Proof.Gen.KernelIdeal.Skeleton
import proofs.«175528_j43868795961969_1_alg».proof.Proof.Gen.KernelIdeal.Launch
import proofs.«175528_j43868795961969_1_alg».proof.Proof.Gen.KernelIdeal.Points
import proofs.«175528_j43868795961969_1_alg».proof.Proof.Gen.KernelIdeal.Frame
import proofs.«175528_j43868795961969_1_alg».proof.Proof.Gen.ReferenceIdeal
import proofs.«175528_j43868795961969_1_alg».proof.Proof.Gen.ReferenceIdeal.Run
import proofs.«175528_j43868795961969_1_alg».proof.Proof.Gen.ReferenceIdeal.Read
import proofs.«175528_j43868795961969_1_alg».proof.Proof.Gen.Pre_finite_inputs
import proofs.«175528_j43868795961969_1_alg».proof.Proof.KValue
import proofs.«175528_j43868795961969_1_alg».proof.Proof.RefDiag
import proofs.«175528_j43868795961969_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the mean loss of the specification, read off argument arrays that agree. -/
theorem algebraic : Cert.algebraic_KernelIdeal_ReferenceIdeal := by
  intro m ρ m' ρ' _ hagree
  refine ⟨fun c => Cert.KernelIdeal.KValue.resultK m c, Cert.KernelIdeal.KValue.run_total m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.KValue.resultK m c
  rw [Cert.ReferenceIdeal.Read.val_main_v44_eq,
    Cert.ReferenceIdeal.RefValue.result_eq _ _ _ (Cert.ReferenceIdeal.Diag.diag_apply _),
    Cert.KernelIdeal.KValue.resultK_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
